-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S64x64 : Shape := ⟨2, ![64, 64]⟩
abbrev S192x32 : Shape := ⟨2, ![192, 32]⟩
abbrev S32 : Shape := ⟨1, ![32]⟩
abbrev S32x64 : Shape := ⟨2, ![32, 64]⟩
abbrev S64 : Shape := ⟨1, ![64]⟩
abbrev S1000000 : Shape := ⟨1, ![1000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S192x32 : S_.BroadcastsInDim S192x32 (![] : Fin 0 → Fin S192x32.rank)
  reducesTo_S192x32_S_d0_1 : S192x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg8 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg8 main_v34
  let main_c_13 : IVec S_ 32 := constantI S_ 32 64#32
  let main_v36 : IVec S100000 32 := broadcastInDim S100000 ![] bcast_S_S100000 main_c_13
  let main_v37 : IVec S100000 1 := cmpi .slt main_arg8 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : FVec F S32 .f32) (main_arg5 : FVec F S32x64 .f32) (main_arg6 : FVec F S64 .f32) (main_arg8 : IVec S100000 32) (main_v13 : IVec S_ 1) (main_v16 : IVec S192x32 1) : IVec S_ 1 :=
  let main_c_5 : IVec S_ 1 := constantI S_ 1 1#1
  let main_v17 : IVec S_ 1 := (fun x v => Host.reduce IntOp.andi x v reducesTo_S192x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : FVec F S1000000x64 .f32) (main_arg2 : FVec F S64x64 .f32) (main_arg3 : FVec F S192x32 .f32) (main_arg4 : FVec F S32 .f32) (main_arg5 : FVec F S32x64 .f32) (main_arg6 : FVec F S64 .f32) (main_arg7 : IVec S1000000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x32 .f32 := Host.absf main_arg3
  let main_cst_4 : FVec F S_ .f32 := constant S_ .f32 0x7F800000#32
  let main_v15 : FVec F S192x32 .f32 := broadcastInDim S192x32 ![] bcast_S_S192x32 main_cst_4
  let main_v16 : IVec S192x32 1 := cmpf .olt main_v14 main_v15
  fn_part1 (F := F) main_arg4 main_arg5 main_arg6 main_arg8 main_v13 main_v16
-- ==== Kernel.lean ====
abbrev S100000x64 : Shape := ⟨2, ![100000, 64]⟩
abbrev S1000000x64 : Shape := ⟨2, ![1000000, 64]⟩
abbrev S64x64 : Shape := ⟨2, ![64, 64]⟩
abbrev S192x32 : Shape := ⟨2, ![192, 32]⟩
abbrev S32 : Shape := ⟨1, ![32]⟩
abbrev S32x64 : Shape := ⟨2, ![32, 64]⟩
abbrev S64 : Shape := ⟨1, ![64]⟩
abbrev S1000000 : Shape := ⟨1, ![1000000]⟩
abbrev S100000 : Shape := ⟨1, ![100000]⟩
abbrev S_ : Shape := ⟨0, ![]⟩
abbrev S1000000x1 : Shape := ⟨2, ![1000000, 1]⟩
abbrev S100000x1 : Shape := ⟨2, ![100000, 1]⟩
abbrev S100000x2 : Shape := ⟨2, ![100000, 2]⟩
abbrev S64x32 : Shape := ⟨2, ![64, 32]⟩
abbrev S1x32 : Shape := ⟨2, ![1, 32]⟩
abbrev S1x64 : Shape := ⟨2, ![1, 64]⟩
abbrev S4000x64 : Shape := ⟨2, ![4000, 64]⟩
abbrev S4000x2 : Shape := ⟨2, ![4000, 2]⟩
abbrev S4000x1 : Shape := ⟨2, ![4000, 1]⟩
abbrev S4000x32 : Shape := ⟨2, ![4000, 32]⟩

abbrev nBuf : Space → Nat
  | .hbm => 30
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S64x64, .f32⟩
  | .hbm, ⟨3, _⟩ => ⟨S192x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S1000000, .i32⟩
  | .hbm, ⟨8, _⟩ => ⟨S100000, .i32⟩
  | .hbm, ⟨9, _⟩ => ⟨S_, .f32⟩
  | .hbm, ⟨10, _⟩ => ⟨S100000x64, .f32⟩
  | .hbm, ⟨11, _⟩ => ⟨S1000000x1, .i32⟩
  | .hbm, ⟨12, _⟩ => ⟨S100000x64, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x1, .f32⟩
  | .hbm, ⟨22, _⟩ => ⟨S100000x2, .f32⟩
  | .hbm, ⟨23, _⟩ => ⟨S64x32, .f32⟩
  | .hbm, ⟨24, _⟩ => ⟨S64x32, .f32⟩
  | .hbm, ⟨25, _⟩ => ⟨S64x32, .f32⟩
  | .hbm, ⟨26, _⟩ => ⟨S64x32, .f32⟩
  | .hbm, ⟨27, _⟩ => ⟨S1x32, .f32⟩
  | .hbm, ⟨28, _⟩ => ⟨S1x64, .f32⟩
  | .hbm, ⟨29, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x2, .f32⟩
  | .local _ .vmem, ⟨5, _⟩ => ⟨S4000x2, .f32⟩
  | .local _ .vmem, ⟨6, _⟩ => ⟨S64x32, .f32⟩
  | .local _ .vmem, ⟨7, _⟩ => ⟨S64x32, .f32⟩
  | .local _ .vmem, ⟨8, _⟩ => ⟨S64x32, .f32⟩
  | .local _ .vmem, ⟨9, _⟩ => ⟨S1x32, .f32⟩
  | .local _ .vmem, ⟨10, _⟩ => ⟨S32x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  slices_S192x32_S64x32_0_0 : S192x32.Slices ![0, 0] S64x32
  slices_S192x32_S64x32_64_0 : S192x32.Slices ![64, 0] S64x32
  slices_S192x32_S64x32_128_0 : S192x32.Slices ![128, 0] S64x32
  shapeCasts_S32_S1x32 : S32.ShapeCasts S1x32
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  broadcasts_S4000x1_S4000x64 : S4000x1.Broadcasts S4000x64
  iota_S4000x64_d1_w32 : S4000x64.Iotas .tc 32 [1]
  natLt_1_32 : 1 < 32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S64x64_S64x32_S64x32_1_0_0_1_n_n_wf : DotDims.WF S64x64 S64x32 S64x32 [1] [0] [0] [1] [] []
  dot_S4000x64_S64x32_S4000x32_1_0_0_1_n_n_wf : DotDims.WF S4000x64 S64x32 S4000x32 [1] [0] [0] [1] [] []
  dot_S4000x32_S32x64_S4000x64_1_0_0_1_n_n_wf : DotDims.WF S4000x32 S32x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S100000x2.size a
  hwx0_2 : ∀ i : grid0.Coords, EltTy.bits .f32 = 32 ∨ (Rect.block (s := S100000x2) S4000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S100000x64.size a
  hwx0_9 : ∀ i : grid0.Coords, EltTy.bits .f32 = 32 ∨ (Rect.block (s := S100000x64) S4000x64.size (cc0_transform_9 i) (hinb0_9 i)).WholeWords (EltTy.packing .f32)

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S64x64 : Shape := ⟨2, ![64, 64]⟩
abbrev S192x32 : Shape := ⟨2, ![192, 32]⟩
abbrev S32 : Shape := ⟨1, ![32]⟩
abbrev S32x64 : Shape := ⟨2, ![32, 64]⟩
abbrev S64 : Shape := ⟨1, ![64]⟩
abbrev S1000000 : Shape := ⟨1, ![1000000]⟩
abbrev S100000 : Shape := ⟨1, ![100000]⟩
abbrev S_ : Shape := ⟨0, ![]⟩
abbrev S1000000x1 : Shape := ⟨2, ![1000000, 1]⟩
abbrev S100000x1 : Shape := ⟨2, ![100000, 1]⟩
abbrev S100000x192 : Shape := ⟨2, ![100000, 192]⟩
abbrev S100000x32 : Shape := ⟨2, ![100000, 32]⟩
abbrev S1x32 : Shape := ⟨2, ![1, 32]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S64x64, .f32⟩
  | .hbm, ⟨3, _⟩ => ⟨S192x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S1000000, .i32⟩
  | .hbm, ⟨8, _⟩ => ⟨S100000, .i32⟩
  | .hbm, ⟨9, _⟩ => ⟨S_, .f32⟩
  | .hbm, ⟨10, _⟩ => ⟨S100000x64, .f32⟩
  | .hbm, ⟨11, _⟩ => ⟨S1000000x1, .i32⟩
  | .hbm, ⟨12, _⟩ => ⟨S100000x64, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x64, .f32⟩
  | .hbm, ⟨34, _⟩ => ⟨S100000x192, .f32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S_, .f32⟩
  | .hbm, ⟨40, _⟩ => ⟨S100000x32, .f32⟩
  | .hbm, ⟨41, _⟩ => ⟨S100000x32, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S64x64_S100000x1_S100000x64_1_0_n_n_0_1_164_wf : GatherDims.WF S64x64 S100000x1 S100000x64 [1] [0] [] [0] [] 1 ![1, 64]
  dot_S100000x192_S192x32_S100000x32_1_0_0_1_n_n_wf : DotDims.WF S100000x192 S192x32 S100000x32 [1] [0] [0] [1] [] []
  dot_S100000x32_S32x64_S100000x64_1_0_0_1_n_n_wf : DotDims.WF S100000x32 S32x64 S100000x64 [1] [0] [0] [1] [] []

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S100000x192_S192x32_S100000x32_1_0_0_1_n_n : DotDims S100000x192 S192x32 S100000x32 where
  lhsContracting := [1]
  rhsContracting := [0]
  lhsNonContracting := [0]
  rhsNonContracting := [1]
  lhsBatch := []
  rhsBatch := []
  wf := dot_S100000x192_S192x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.Spec.lean ====
/-
  The node update of a graph network layer, as ONE function of the argument arrays.

  For node `n`: the mean of the edge features received by `n` is the segment sum divided by
  `max (count, 1)`; the node's graph is row `slot n` of the table of global features; the three
  64-wide vectors (node features, received mean, global features) are laid side by side and sent
  through a two-layer perceptron `relu (· W1 + b1) W2 + b2`.  The contraction against the 192 rows
  of `W1` is written here as three sums of 64 terms, against rows 0–63, 64–127 and 128–191.

  The segment sums `sums` and the counts `cnt` are arguments: both programs compute them by the
  same scatter, so nothing about them is ever opened.
-/
import Idealize.ShloMosaic.PureOps.Ideal
import Idealize.ShloMosaic.Lib.ValueIdx

noncomputable section

open scoped BigOperators

namespace Cert.NodeMlp

open Idealize.ShloMosaic Idealize.ShloMosaic.ValueIdx

/-- Row `r` of the first (`o = 0`), second (`o = 64`) or third (`o = 128`) band of 64 rows of a 192-row matrix. -/
abbrev band (o : Nat) (ho : o + 64 ≤ 192) (k : Fin 64) : Fin 192 := ⟨o + k.val, by omega⟩

/-- The graph a node belongs to: its index word read as a signed integer and clamped into the 64 rows of the table. -/
def slot (ng : (⟨1, ![100000]⟩ : Shape).Idx → BitVec 32) (n : Fin 100000) : Fin 64 :=
  ⟨min (ng (ix1 n)).toInt.toNat 63, by omega⟩

/-- The mean of the edge features a node receives: the segment sum over `max (count, 1)`. -/
def mean (sums : (⟨2, ![100000, 64]⟩ : Shape).Idx → EReal) (cnt : (⟨1, ![100000]⟩ : Shape).Idx → EReal)
    (n : Fin 100000) (k : Fin 64) : EReal :=
  Ideal.div (sums (ix2 n k)) (max (cnt (ix1 n)) (Ideal.ofBits .f32 0x3F800000#32))

/-- The first layer before its relu: the three 64-term contractions and the bias. -/
def lin (x0 : (⟨2, ![100000, 64]⟩ : Shape).Idx → EReal) (sums : (⟨2, ![100000, 64]⟩ : Shape).Idx → EReal)
    (cnt : (⟨1, ![100000]⟩ : Shape).Idx → EReal) (x2 : (⟨2, ![64, 64]⟩ : Shape).Idx → EReal)
    (x3 : (⟨2, ![192, 32]⟩ : Shape).Idx → EReal) (x4 : (⟨1, ![32]⟩ : Shape).Idx → EReal)
    (ng : (⟨1, ![100000]⟩ : Shape).Idx → BitVec 32) (n : Fin 100000) (j : Fin 32) : EReal :=
  (∑ k : Fin 64, x0 (ix2 n k) * x3 (ix2 (band 0 (by omega) k) j))
    + (∑ k : Fin 64, mean sums cnt n k * x3 (ix2 (band 64 (by omega) k) j))
    + (∑ k : Fin 64, x2 (ix2 (slot ng n) k) * x3 (ix2 (band 128 (by omega) k) j))
    + x4 (ix1 j)

/-- The hidden layer: the relu of `lin`. -/
def hid (x0 : (⟨2, ![100000, 64]⟩ : Shape).Idx → EReal) (sums : (⟨2, ![100000, 64]⟩ : Shape).Idx → EReal)
    (cnt : (⟨1, ![100000]⟩ : Shape).Idx → EReal) (x2 : (⟨2, ![64, 64]⟩ : Shape).Idx → EReal)
    (x3 : (⟨2, ![192, 32]⟩ : Shape).Idx → EReal) (x4 : (⟨1, ![32]⟩ : Shape).Idx → EReal)
    (ng : (⟨1, ![100000]⟩ : Shape).Idx → BitVec 32) (n : Fin 100000) (j : Fin 32) : EReal :=
  max (lin x0 sums cnt x2 x3 x4 ng n j) (Ideal.ofBits .f32 0x00000000#32)

/-- THE RESULT, index by index: the second layer over the hidden one. -/
def G (x0 : (⟨2, ![100000, 64]⟩ : Shape).Idx → EReal) (sums : (⟨2, ![100000, 64]⟩ : Shape).Idx → EReal)
    (cnt : (⟨1, ![100000]⟩ : Shape).Idx → EReal) (x2 : (⟨2, ![64, 64]⟩ : Shape).Idx → EReal)
    (x3 : (⟨2, ![192, 32]⟩ : Shape).Idx → EReal) (x4 : (⟨1, ![32]⟩ : Shape).Idx → EReal)
    (x5 : (⟨2, ![32, 64]⟩ : Shape).Idx → EReal) (x6 : (⟨1, ![64]⟩ : Shape).Idx → EReal)
    (ng : (⟨1, ![100000]⟩ : Shape).Idx → BitVec 32) : (⟨2, ![100000, 64]⟩ : Shape).Idx → EReal :=
  fun i => (∑ j : Fin 32, hid x0 sums cnt x2 x3 x4 ng (i 0) j * x5 (ix2 j (i 1))) + x6 (ix1 (i 1))

/-- The node's index word is in the table's range. -/
def InRange (ng : (⟨1, ![100000]⟩ : Shape).Idx → BitVec 32) : Prop :=
  ∀ n : Fin 100000, 0 ≤ (ng (ix1 n)).toInt ∧ (ng (ix1 n)).toInt < 64

/-- In range, the index word is the slot's number. -/
theorem word_eq_slot {ng : (⟨1, ![100000]⟩ : Shape).Idx → BitVec 32} (h : InRange ng) (n : Fin 100000) :
    ng (ix1 n) = BitVec.ofNat 32 (slot ng n).val := by
  obtain ⟨h0, h1⟩ := h n
  have hs : (slot ng n).val = (ng (ix1 n)).toInt.toNat := by
    show min (ng (ix1 n)).toInt.toNat 63 = _
    omega
  have hlt := (ng (ix1 n)).isLt
  have hti := BitVec.toInt_eq_toNat_cond (ng (ix1 n))
  apply BitVec.eq_of_toNat_eq
  rw [BitVec.toNat_ofNat, hs]
  split at hti <;> omega

/-- A sum over the 192 rows is the sum over its three bands of 64. -/
theorem sum_three_bands {M : Type} [AddCommMonoid M] (f : Fin 192 → M) :
    ∑ k : Fin 192, f k = (∑ k : Fin 64, f (band 0 (by omega) k)) + (∑ k : Fin 64, f (band 64 (by omega) k))
      + (∑ k : Fin 64, f (band 128 (by omega) k)) := by
  have h1 := Fin.sum_univ_add (a := 128) (b := 64) f
  have h2 := Fin.sum_univ_add (a := 64) (b := 64) (fun i : Fin 128 => f (Fin.castAdd 64 i))
  rw [h1, h2]
  refine congrArg₂ (· + ·) (congrArg₂ (· + ·) ?_ ?_) ?_
  · exact Finset.sum_congr rfl fun k _ => congrArg f (Fin.ext (by simp [band] <;> omega))
  · exact Finset.sum_congr rfl fun k _ => congrArg f (Fin.ext (by simp [band] <;> omega))
  · exact Finset.sum_congr rfl fun k _ => congrArg f (Fin.ext (by simp [band] <;> omega))

end Cert.NodeMlp

end
-- ==== Proof.PreDecode.lean ====
/-
  The precondition's last conjunct, read back.

  The predicate is a conjunction of "all" tests; its last test says that every word of the
  node-to-graph index array, read as a signed integer, is at least 0 and below 64.  A
  conjunction of one-bit words that is 1 has both sides 1; an "all" (a reduction by "and" over
  every axis) that is 1 had a 1 at every index; a signed comparison against a scalar spread over
  the array compares each word with that scalar.  So at every node `n` the word lies in [0, 64).
-/
import proofs.«412997_j16449724745526_2_alg».proof.Proof.Gen.Pre_finite_inputs
import proofs.«412997_j16449724745526_2_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- A rank-0 array has one index. -/
instance : Subsingleton Cert.Pre_finite_inputs.S_.Idx := ⟨fun a b => funext fun d => d.elim0⟩

/-- The last conjunct alone: if the range test over the index array is 1, every word is in [0, 64). -/
theorem inRange_of_part2 [Cert.Pre_finite_inputs.Facts] {F : FTy → Type} [FloatOps F]
    (a8 : IVec Cert.Pre_finite_inputs.S100000 32) (v : IVec Cert.Pre_finite_inputs.S_ 1)
    (h : Cert.Pre_finite_inputs.fn_part2 (F := F) a8 v ix0 = 1#1) : Cert.NodeMlp.InRange a8 := by
  intro n
  unfold Cert.Pre_finite_inputs.fn_part2 at h
  -- the outer conjunction: keep its second side, the "all"
  have hall := (IntOp.andi_eq_one.1 h).2
  -- the "all" gives the test at node n
  have hn := Host.reduce_andi_all _ _ _ _ _ hall (ix1 n)
  -- the inner conjunction: the two comparisons
  obtain ⟨hge, hlt⟩ := IntOp.andi_eq_one.1 hn
  have h0 : (0#32 : BitVec 32).toInt ≤ (a8 (ix1 n)).toInt := IntOp.cmpi_sge.1 hge
  have h64 : (a8 (ix1 n)).toInt < (64#32 : BitVec 32).toInt := IntOp.cmpi_slt.1 hlt
  have z0 : (0#32 : BitVec 32).toInt = 0 := by decide
  have z64 : (64#32 : BitVec 32).toInt = 64 := by decide
  rw [z0] at h0
  rw [z64] at h64
  exact ⟨h0, h64⟩

theorem inRange_of_pre [Cert.Pre_finite_inputs.Facts] {F : FTy → Type} [FloatOps F]
    (a0 : FVec F Cert.Pre_finite_inputs.S100000x64 .f32) (a1 : FVec F Cert.Pre_finite_inputs.S1000000x64 .f32)
    (a2 : FVec F Cert.Pre_finite_inputs.S64x64 .f32) (a3 : FVec F Cert.Pre_finite_inputs.S192x32 .f32)
    (a4 : FVec F Cert.Pre_finite_inputs.S32 .f32) (a5 : FVec F Cert.Pre_finite_inputs.S32x64 .f32)
    (a6 : FVec F Cert.Pre_finite_inputs.S64 .f32) (a7 : IVec Cert.Pre_finite_inputs.S1000000 32)
    (a8 : IVec Cert.Pre_finite_inputs.S100000 32)
    (h : Cert.Pre_finite_inputs.fn (F := F) a0 a1 a2 a3 a4 a5 a6 a7 a8 = fun _ => 1#1) :
    Cert.NodeMlp.InRange a8 := by
  have e := congrFun h ix0
  -- the predicate is its last part applied to the conjunction of the earlier tests
  unfold Cert.Pre_finite_inputs.fn Cert.Pre_finite_inputs.fn_part1 at e
  exact inRange_of_part2 (F := F) a8 _ e

end Cert.PreDecode

end
-- ==== Proof.RefSide.lean ====
/-
  The reference program's result, read index by index, is the specification `G`.

  Element (n, o) of the result is the second layer's contraction over the 32 hidden units plus its bias.  Hidden
  unit j of node n is the relu of the first layer, a contraction over the 192 columns of the joined array plus a
  bias.  The joined array lays three 64-wide vectors side by side, so the contraction splits into three sums of 64
  terms: columns 0 to 63 read the node's own features, columns 64 to 127 the segment sum over max (count, 1), and
  columns 128 to 191 the row of the table of global features named by the node's index word.  That word is read
  signed and clamped into the 64 rows; for a word already in range the wrap of a negative index is not taken, and
  the clamped value is the word's own.  The segment sums and the counts are never opened.
-/
import proofs.«412997_j16449724745526_2_alg».proof.Proof.Gen.ReferenceIdeal.Read
import proofs.«412997_j16449724745526_2_alg».proof.Proof.Spec
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read Idealize.ShloMosaic
  Idealize.ShloMosaic.ValueIdx Cert.NodeMlp

local notation "gd" => gather_S64x64_S100000x1_S100000x64_1_0_n_n_0_1_164

/-- The table gathered at rows: element (n, k) is the table at the row named by the start word of n,
    read signed and clamped into the 64 rows, column k. -/
theorem gather_rows {α : Type} {w : Nat} (x : S64x64.Idx → α) (idx : IVec S100000x1 w) (n : Fin 100000) (k : Fin 64) :
    Host.gather gd x idx (ix2 n k)
      = x (ix2 (⟨min (idx (ix2 n (0 : Fin 1))).toInt.toNat 63, by omega⟩ : Fin 64) k) := by
  unfold Host.gather
  congr 1
  funext a
  refine Fin.ext ?_
  match a with
  | ⟨0, _⟩ =>
    show (gd).start (ix2 n k) idx 0 + (gd).batchCoord (ix2 n k) 0 + (gd).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : (gd).siIdx (ix2 n k) ⟨List.idxOf (0 : Fin 2) (gd).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (gd).start (ix2 n k) idx 1 + (gd).batchCoord (ix2 n k) 1 + (gd).offCoord (ix2 n k) 1 = _
    rw [GatherDims.batchCoord_eq_zero _ _ _ List.not_mem_nil]
    have hs : (gd).start (ix2 n k) idx 1 = 0 := by
      unfold GatherDims.start
      rw [dif_neg (show ¬ (1 : Fin 2) ∈ (gd).startIndexMap by decide)]
    rw [hs]
    simp only [Nat.add_zero, Nat.zero_add]
    unfold GatherDims.offCoord
    rw [dif_pos (show (1 : Fin 2) ∈ (gd).sKept by decide)]
    rfl

/-- The joined array's pieces. -/
abbrev cat {α : Type} (a b c : S100000x64.Idx → α) : S100000x192.Idx → α :=
  concatenate S100000x192 1 [⟨S100000x64, a⟩, ⟨S100000x64, b⟩, ⟨S100000x64, c⟩]
    concatenates_S100000x64_S100000x64_S100000x64_S100000x192_d1

/-- Columns 0 to 63 of the joined array read the first piece. -/
theorem cat_band0 {α : Type} (a b c : S100000x64.Idx → α) (n : Fin 100000) (k : Fin 64) :
    cat a b c (ix2 n (band 0 (by omega) k)) = a (ix2 n k) := by
  refine concatenate_apply_piece (t := S100000x192) 1 [⟨S100000x64, a⟩, ⟨S100000x64, b⟩, ⟨S100000x64, c⟩]
    concatenates_S100000x64_S100000x64_S100000x64_S100000x192_d1 _ 0 (by show (0 : Nat) < 3; omega) S100000x64 a rfl rfl 0 rfl (ix2 n k) ?_ ?_
  · intro b hb
    match b with
    | ⟨0, _⟩ => rfl
    | ⟨1, _⟩ => exact absurd rfl hb
  · show 0 + k.val = 0 + k.val
    rfl

/-- Columns 64 to 127 read the second piece. -/
theorem cat_band1 {α : Type} (a b c : S100000x64.Idx → α) (n : Fin 100000) (k : Fin 64) :
    cat a b c (ix2 n (band 64 (by omega) k)) = b (ix2 n k) := by
  refine concatenate_apply_piece (t := S100000x192) 1 [⟨S100000x64, a⟩, ⟨S100000x64, b⟩, ⟨S100000x64, c⟩]
    concatenates_S100000x64_S100000x64_S100000x64_S100000x192_d1 _ 1 (by show (1 : Nat) < 3; omega) S100000x64 b rfl rfl 64 rfl (ix2 n k) ?_ ?_
  · intro b hb
    match b with
    | ⟨0, _⟩ => rfl
    | ⟨1, _⟩ => exact absurd rfl hb
  · show 64 + k.val = 64 + k.val
    rfl

/-- Columns 128 to 191 read the third piece. -/
theorem cat_band2 {α : Type} (a b c : S100000x64.Idx → α) (n : Fin 100000) (k : Fin 64) :
    cat a b c (ix2 n (band 128 (by omega) k)) = c (ix2 n k) := by
  refine concatenate_apply_piece (t := S100000x192) 1 [⟨S100000x64, a⟩, ⟨S100000x64, b⟩, ⟨S100000x64, c⟩]
    concatenates_S100000x64_S100000x64_S100000x64_S100000x192_d1 _ 2 (by show (2 : Nat) < 3; omega) S100000x64 c rfl rfl 128 rfl (ix2 n k) ?_ ?_
  · intro b hb
    match b with
    | ⟨0, _⟩ => rfl
    | ⟨1, _⟩ => exact absurd rfl hb
  · show 128 + k.val = 128 + k.val
    rfl

/-- A word that is not negative does not compare below zero. -/
theorem slt_zero_of_nonneg (x : BitVec 32) (h : 0 ≤ x.toInt) : IntOp.cmpi .slt x 0#32 = 0#1 := by
  apply eq_zero_of_ne_one
  intro h1
  have : x.toInt < (0#32 : BitVec 32).toInt := by
    have h2 : (BitVec.ofBool (x.slt 0#32)) = 1#1 := h1
    have h3 : x.slt 0#32 = true := by
      cases hb : x.slt 0#32
      · rw [hb] at h2; exact absurd h2 (by decide)
      · rfl
    exact BitVec.slt_iff_toInt_lt.mp h3
  have h0 : (0#32 : BitVec 32).toInt = 0 := by decide
  omega

/-- In range, the start word of node n is its index word: the wrap of a negative index is not taken. -/
theorem start_word (x8 : (⟨S100000, .i32⟩ : BufTy).Contents (Elt Ideal)) (hng : InRange x8) (n : Fin 100000) :
    val_main_v17 (F := Ideal) x8 (ix2 n (0 : Fin 1)) = x8 (ix1 n) := by
  have e : idx_main_v17 (ix2 n (0 : Fin 1)) = ix1 n := funext fun a => Fin.ext (by match a with | ⟨0, _⟩ => rfl)
  rw [val_main_v17_apply, e, val_main_v16_apply, val_main_v13_apply, val_main_v12_apply, val_main_c_apply,
    slt_zero_of_nonneg _ (hng n).1, select_zero]

/-! ## The index functions of the two contractions, by coordinates -/

theorem lidx20 (n : Fin 100000) (j : Fin 32) (k : Fin 192) : lidx_main_v20 (ix2 n j) k = ix2 n k :=
  funext fun a => Fin.ext (by match a with | ⟨0, _⟩ => rfl | ⟨1, _⟩ => rfl)
theorem ridx20 (n : Fin 100000) (j : Fin 32) (k : Fin 192) : ridx_main_v20 (ix2 n j) k = ix2 k j :=
  funext fun a => Fin.ext (by match a with | ⟨0, _⟩ => rfl | ⟨1, _⟩ => rfl)
theorem lidx25 (n : Fin 100000) (o : Fin 64) (j : Fin 32) : lidx_main_v25 (ix2 n o) j = ix2 n j :=
  funext fun a => Fin.ext (by match a with | ⟨0, _⟩ => rfl | ⟨1, _⟩ => rfl)
theorem ridx25 (n : Fin 100000) (o : Fin 64) (j : Fin 32) : ridx_main_v25 (ix2 n o) j = ix2 j o :=
  funext fun a => Fin.ext (by match a with | ⟨0, _⟩ => rfl | ⟨1, _⟩ => rfl)

/-! ## The joined array, band by band -/

section Bands
variable (x0 : (⟨S100000x64, .f32⟩ : BufTy).Contents (Elt Ideal)) (x1 : (⟨S1000000x64, .f32⟩ : BufTy).Contents (Elt Ideal))
    (x2 : (⟨S64x64, .f32⟩ : BufTy).Contents (Elt Ideal)) (x3 : (⟨S192x32, .f32⟩ : BufTy).Contents (Elt Ideal))
    (x4 : (⟨S32, .f32⟩ : BufTy).Contents (Elt Ideal)) (x5 : (⟨S32x64, .f32⟩ : BufTy).Contents (Elt Ideal))
    (x6 : (⟨S64, .f32⟩ : BufTy).Contents (Elt Ideal)) (x7 : (⟨S1000000, .i32⟩ : BufTy).Contents (Elt Ideal))
    (x8 : (⟨S100000, .i32⟩ : BufTy).Contents (Elt Ideal))

/-- Columns 0 to 63: the node's own features. -/
theorem v19_band0 (n : Fin 100000) (k : Fin 64) :
    val_main_v19 (F := Ideal) x0 x1 x2 x7 x8 (ix2 n (band 0 (by omega) k)) = x0 (ix2 n k) :=
  cat_band0 x0 (val_main_v11 (F := Ideal) x1 x7) (val_main_v18 (F := Ideal) x2 x8) n k

/-- Columns 64 to 127: the mean of the received edge features. -/
theorem v19_band1 (n : Fin 100000) (k : Fin 64) :
    val_main_v19 (F := Ideal) x0 x1 x2 x7 x8 (ix2 n (band 64 (by omega) k))
      = mean (val_main_v2 (F := Ideal) x1 x7) (val_main_v6 (F := Ideal) x7) n k := by
  have h := cat_band1 x0 (val_main_v11 (F := Ideal) x1 x7) (val_main_v18 (F := Ideal) x2 x8) n k
  have e : idx_main_v9 (idx_main_v10 (ix2 n k)) = ix1 n :=
    funext fun a => Fin.ext (by match a with | ⟨0, _⟩ => rfl)
  refine h.trans ?_
  rw [val_main_v11_apply, val_main_v10_apply, val_main_v9_apply, e, val_main_v8_apply, val_main_v7_apply,
    val_main_cst_2_apply]
  rfl

/-- Columns 128 to 191: the row of the table of global features that the node's index word names. -/
theorem v19_band2 (hng : InRange x8) (n : Fin 100000) (k : Fin 64) :
    val_main_v19 (F := Ideal) x0 x1 x2 x7 x8 (ix2 n (band 128 (by omega) k)) = x2 (ix2 (slot x8 n) k) := by
  have h := cat_band2 x0 (val_main_v11 (F := Ideal) x1 x7) (val_main_v18 (F := Ideal) x2 x8) n k
  refine h.trans ?_
  show Host.gather gd x2 (val_main_v17 (F := Ideal) x8) (ix2 n k) = _
  rw [gather_rows]
  refine congrArg x2 (congrArg (fun r : Fin 64 => ix2 r k) (Fin.ext ?_))
  show min (val_main_v17 (F := Ideal) x8 (ix2 n (0 : Fin 1))).toInt.toNat 63 = min (x8 (ix1 n)).toInt.toNat 63
  rw [start_word x8 hng n]

/-- The first layer before its relu. -/
theorem v23_eq (hng : InRange x8) (n : Fin 100000) (j : Fin 32) :
    val_main_v23 (F := Ideal) x0 x1 x2 x3 x4 x7 x8 (ix2 n j)
      = lin x0 (val_main_v2 (F := Ideal) x1 x7) (val_main_v6 (F := Ideal) x7) x2 x3 x4 x8 n j := by
  have e : idx_main_v21 (idx_main_v22 (ix2 n j)) = ix1 j :=
    funext fun a => Fin.ext (by match a with | ⟨0, _⟩ => rfl)
  rw [val_main_v23_apply, val_main_v20_apply, val_main_v22_apply, val_main_v21_apply, e, Ideal.addf_def,
    sum_three_bands]
  unfold lin
  refine congrArg₂ (· + ·) (congrArg₂ (· + ·) (congrArg₂ (· + ·) ?_ ?_) ?_) rfl
  · refine Finset.sum_congr rfl fun k _ => ?_
    rw [lidx20, ridx20, v19_band0]
  · refine Finset.sum_congr rfl fun k _ => ?_
    rw [lidx20, ridx20, v19_band1]
  · refine Finset.sum_congr rfl fun k _ => ?_
    rw [lidx20, ridx20, v19_band2 x0 x1 x2 x7 x8 hng]

/-- The hidden layer. -/
theorem v24_eq (hng : InRange x8) (n : Fin 100000) (j : Fin 32) :
    val_main_v24 (F := Ideal) x0 x1 x2 x3 x4 x7 x8 (ix2 n j)
      = hid x0 (val_main_v2 (F := Ideal) x1 x7) (val_main_v6 (F := Ideal) x7) x2 x3 x4 x8 n j := by
  rw [val_main_v24_apply, v23_eq x0 x1 x2 x3 x4 x7 x8 hng, val_main_call0_v0_apply, val_main_call0_cst_apply]
  rfl

end Bands

/-- THE REFERENCE IS THE SPECIFICATION, index by index. -/
theorem ref_eq (x0 : (⟨S100000x64, .f32⟩ : BufTy).Contents (Elt Ideal)) (x1 : (⟨S1000000x64, .f32⟩ : BufTy).Contents (Elt Ideal))
    (x2 : (⟨S64x64, .f32⟩ : BufTy).Contents (Elt Ideal)) (x3 : (⟨S192x32, .f32⟩ : BufTy).Contents (Elt Ideal))
    (x4 : (⟨S32, .f32⟩ : BufTy).Contents (Elt Ideal)) (x5 : (⟨S32x64, .f32⟩ : BufTy).Contents (Elt Ideal))
    (x6 : (⟨S64, .f32⟩ : BufTy).Contents (Elt Ideal)) (x7 : (⟨S1000000, .i32⟩ : BufTy).Contents (Elt Ideal))
    (x8 : (⟨S100000, .i32⟩ : BufTy).Contents (Elt Ideal)) (hng : Cert.NodeMlp.InRange x8) :
      Cert.ReferenceIdeal.Read.val_main_v28 (F := Ideal) x0 x1 x2 x3 x4 x5 x6 x7 x8
        = Cert.NodeMlp.G x0 (Cert.ReferenceIdeal.Read.val_main_v2 (F := Ideal) x1 x7) (Cert.ReferenceIdeal.Read.val_main_v6 (F := Ideal) x7) x2 x3 x4 x5 x6 x8 := by
  funext i
  obtain ⟨n, o, rfl⟩ : ∃ (n : Fin 100000) (o : Fin 64), i = ix2 n o := ⟨i 0, i 1, eq_ix2 i⟩
  have e : idx_main_v26 (idx_main_v27 (ix2 n o)) = ix1 o :=
    funext fun a => Fin.ext (by match a with | ⟨0, _⟩ => rfl)
  rw [val_main_v28_apply, val_main_v25_apply, val_main_v27_apply, val_main_v26_apply, e, Ideal.addf_def]
  show _ = (∑ j : Fin 32, hid x0 (val_main_v2 (F := Ideal) x1 x7) (val_main_v6 (F := Ideal) x7) x2 x3 x4 x8 n j
      * x5 (ix2 j o)) + x6 (ix1 o)
  refine congrArg₂ (· + ·) (Finset.sum_congr rfl fun j _ => ?_) rfl
  rw [lidx25, ridx25, v24_eq x0 x1 x2 x3 x4 x7 x8 hng]

end Cert.RefSide

end
-- ==== Proof.KernelOps.lean ====
/-
  The kernel body's operations, read at one element of a block.

  Three block products occur: [4000,64] by [64,32] (the three first-layer contractions), [4000,32] by [32,64]
  (the second layer) and, before the launch, [64,64] by [64,32] (the table of global features folded into the
  third band of the first layer's weights).  Into a zero accumulator each is, at row r and column c, the sum
  over the contracted coordinate k of left (r, k) times right (k, c).  The other operations are read through
  their layout: a column spread over 64 lanes reads the column, a one-row block spread over 4000 rows reads
  the row, a one-column slice of the two-column side block reads that column.
-/
import proofs.«412997_j16449724745526_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelSide

open Cert.KernelIdeal Cert.KernelIdeal.Gen Idealize.ShloMosaic Idealize.ShloMosaic.ValueIdx

/-! ## The first layer's block product: [4000,64] by [64,32] -/

theorem lhsA_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem lhsA_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
theorem rhsA_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
theorem rhsA_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- Row p, column j of a [4000,64] by [64,32] product into zero: the 64-term sum. -/
theorem matmulA_apply {φ₁ φ₂ : FTy} (A : FVec Ideal S4000x64 φ₁) (B : FVec Ideal S64x32 φ₂) (p : Fin 4000) (j : Fin 32) :
    matmul dot_S4000x64_S64x32_S4000x32_1_0_0_1_n_n none A B (constant S4000x32 .f32 0x00000000#32) (ix2 p j)
      = ∑ k : Fin 64, A (ix2 p k) * B (ix2 k j) := by
  show FloatOps.matmul dot_S4000x64_S64x32_S4000x32_1_0_0_1_n_n none A B (constant S4000x32 .f32 0x00000000#32) (ix2 p j) = _
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p j) ((ValueIdx.contrEquiv1 dot_S4000x64_S64x32_S4000x32_1_0_0_1_n_n 64 rfl rfl).symm k) = ix2 p k := funext fun a => Fin.ext (by
    match a with
    | ⟨0, _⟩ => exact lhsA_0 _ _
    | ⟨1, _⟩ => exact (lhsA_1 _ _).trans hk)
  have er : dot_S4000x64_S64x32_S4000x32_1_0_0_1_n_n.rhsIdx (ix2 p j) ((ValueIdx.contrEquiv1 dot_S4000x64_S64x32_S4000x32_1_0_0_1_n_n 64 rfl rfl).symm k) = ix2 k j := funext fun a => Fin.ext (by
    match a with
    | ⟨0, _⟩ => exact (rhsA_0 _ _).trans hk
    | ⟨1, _⟩ => exact rhsA_1 _ _)
  rw [el, er]

/-! ## The second layer's block product: [4000,32] by [32,64] -/

theorem lhsB_0 (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
theorem lhsB_1 (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
theorem rhsB_0 (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
theorem rhsB_1 (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- Row p, column o of a [4000,32] by [32,64] product into zero: the 32-term sum. -/
theorem matmulB_apply {φ₁ φ₂ : FTy} (A : FVec Ideal S4000x32 φ₁) (B : FVec Ideal S32x64 φ₂) (p : Fin 4000) (o : Fin 64) :
    matmul dot_S4000x32_S32x64_S4000x64_1_0_0_1_n_n none A B (constant S4000x64 .f32 0x00000000#32) (ix2 p o)
      = ∑ j : Fin 32, A (ix2 p j) * B (ix2 j o) := by
  show FloatOps.matmul dot_S4000x32_S32x64_S4000x64_1_0_0_1_n_n none A B (constant S4000x64 .f32 0x00000000#32) (ix2 p o) = _
  rw [Ideal.matmul_constant_zero_apply, ← Equiv.sum_comp (ValueIdx.contrEquiv1 dot_S4000x32_S32x64_S4000x64_1_0_0_1_n_n 32 rfl rfl).symm]
  refine Finset.sum_congr rfl fun k _ => ?_
  have hk := ValueIdx.contrEquiv1_symm_val dot_S4000x32_S32x64_S4000x64_1_0_0_1_n_n 32 rfl rfl k
  have el : dot_S4000x32_S32x64_S4000x64_1_0_0_1_n_n.lhsIdx (ix2 p o) ((ValueIdx.contrEquiv1 dot_S4000x32_S32x64_S4000x64_1_0_0_1_n_n 32 rfl rfl).symm k) = ix2 p k := funext fun a => Fin.ext (by
    match a with
    | ⟨0, _⟩ => exact lhsB_0 _ _
    | ⟨1, _⟩ => exact (lhsB_1 _ _).trans hk)
  have er : dot_S4000x32_S32x64_S4000x64_1_0_0_1_n_n.rhsIdx (ix2 p o) ((ValueIdx.contrEquiv1 dot_S4000x32_S32x64_S4000x64_1_0_0_1_n_n 32 rfl rfl).symm k) = ix2 k o := funext fun a => Fin.ext (by
    match a with
    | ⟨0, _⟩ => exact (rhsB_0 _ _).trans hk
    | ⟨1, _⟩ => exact rhsB_1 _ _)
  rw [el, er]

/-! ## The product made before the launch: [64,64] by [64,32] -/

theorem lhsC_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem lhsC_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem rhsC_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem rhsC_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- Row b, column j of the [64,64] by [64,32] product: the 64-term sum. -/
theorem dotC_apply (A : FVec Ideal S64x64 .f32) (B : FVec Ideal S64x32 .f32) (b : Fin 64) (j : Fin 32) :
    Host.dotGeneral dot_S64x64_S64x32_S64x32_1_0_0_1_n_n (some .fp32) A B (ix2 b j)
      = ∑ k : Fin 64, A (ix2 b k) * B (ix2 k j) := by
  simp only [Host.dotGeneral]
  rw [Ideal.dotGeneral_apply, ← Equiv.sum_comp (ValueIdx.contrEquiv1 dot_S64x64_S64x32_S64x32_1_0_0_1_n_n 64 rfl rfl).symm]
  refine Finset.sum_congr rfl fun k _ => ?_
  have hk := ValueIdx.contrEquiv1_symm_val dot_S64x64_S64x32_S64x32_1_0_0_1_n_n 64 rfl rfl k
  have el : dot_S64x64_S64x32_S64x32_1_0_0_1_n_n.lhsIdx (ix2 b j) ((ValueIdx.contrEquiv1 dot_S64x64_S64x32_S64x32_1_0_0_1_n_n 64 rfl rfl).symm k) = ix2 b k := funext fun a => Fin.ext (by
    match a with
    | ⟨0, _⟩ => exact lhsC_0 _ _
    | ⟨1, _⟩ => exact (lhsC_1 _ _).trans hk)
  have er : dot_S64x64_S64x32_S64x32_1_0_0_1_n_n.rhsIdx (ix2 b j) ((ValueIdx.contrEquiv1 dot_S64x64_S64x32_S64x32_1_0_0_1_n_n 64 rfl rfl).symm k) = ix2 k j := funext fun a => Fin.ext (by
    match a with
    | ⟨0, _⟩ => exact (rhsC_0 _ _).trans hk
    | ⟨1, _⟩ => exact rhsC_1 _ _)
  rw [el, er]

/-! ## A column spread over the lanes -/

/-- A [a,1] column spread to [a,b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.KernelSide

end
-- ==== Proof.KernelHost.lean ====
/-
  What the launch finds in the arrays it stages.

  Before the launch the program computes: the segment sums and the counts (two scatters, left unopened); the
  side array with the node's graph number as a float in column 0 and the count in column 1; the three bands
  of 64 rows of the first weights, the first two as they are and the third already multiplied into the table
  of global features; and the two biases as one-row blocks.  Each staged array is named here as one term of
  the argument arrays, and read at the coordinates a row of a block needs.
-/
import proofs.«412997_j16449724745526_2_alg».proof.Proof.Gen.KernelIdeal.Frame
import proofs.«412997_j16449724745526_2_alg».proof.Proof.KernelOps
import proofs.«412997_j16449724745526_2_alg».proof.Proof.Spec
import Idealize.ShloMosaic.Lib.StableHlo.Run

noncomputable section

open scoped BigOperators

namespace Cert.KernelSide

open Cert.KernelIdeal Cert.KernelIdeal.Gen Idealize.ShloMosaic Idealize.ShloMosaic.TcCoe Idealize.SL.Sem
  Idealize.ShloMosaic.StableHlo Idealize.ShloMosaic.ValueIdx Cert.NodeMlp

/-! ## The staged arrays as terms of the arguments -/

/-- The segment sums of the edge features, as the program computes them. -/
abbrev segSums (a1 : S1000000x64.Idx → EReal) (a7 : S1000000.Idx → BitVec 32) : S100000x64.Idx → EReal :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 a7) a1

/-- The number of edges each node receives, as the program computes it. -/
abbrev segCnt (a7 : S1000000.Idx → BitVec 32) : S100000.Idx → EReal :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 a7)
    (broadcastInDim S1000000 ![] bcast_S_S1000000 (constant (F := Ideal) S_ .f32 0x3F800000#32))

/-- The side array: the graph number as a float beside the count. -/
def sideArr (a7 : S1000000.Idx → BitVec 32) (a8 : S100000.Idx → BitVec 32) : S100000x2.Idx → EReal :=
  concatenate S100000x2 1
    [⟨S100000x1, broadcastInDim S100000x1 ![0] bcast_S100000_S100000x1_0 (sitofp (F := Ideal) .f32 a8)⟩,
     ⟨S100000x1, broadcastInDim S100000x1 ![0] bcast_S100000_S100000x1_0 (segCnt a7)⟩]
    concatenates_S100000x1_S100000x1_S100000x2_d1

/-- The table of global features multiplied into the third band of the first weights. -/
def tableArr (a2 : S64x64.Idx → EReal) (a3 : S192x32.Idx → EReal) : S64x32.Idx → EReal :=
  Host.dotGeneral (F := Ideal) (φ₁ := .f32) (φ₂ := .f32) dot_S64x64_S64x32_S64x32_1_0_0_1_n_n (some .fp32) a2
    (extractStridedSlice S64x32 ![128, 0] a3 slices_S192x32_S64x32_128_0)

/-- The first and second bands of the first weights. -/
def w1aArr (a3 : S192x32.Idx → EReal) : S64x32.Idx → EReal := extractStridedSlice S64x32 ![0, 0] a3 slices_S192x32_S64x32_0_0
def w1bArr (a3 : S192x32.Idx → EReal) : S64x32.Idx → EReal := extractStridedSlice S64x32 ![64, 0] a3 slices_S192x32_S64x32_64_0

/-- The biases as one-row blocks. -/
def b1Arr (a4 : S32.Idx → EReal) : S1x32.Idx → EReal := shapeCast S1x32 a4 shapeCasts_S32_S1x32
def b2Arr (a6 : S64.Idx → EReal) : S1x64.Idx → EReal := shapeCast S1x64 a6 shapeCasts_S64_S1x64

/-! ## Those terms read at an index -/

/-- A vector laid as a one-column array reads the vector. -/
theorem col_apply {α : Type} (x : S100000.Idx → α) (n : Fin 100000) :
    broadcastInDim S100000x1 ![0] bcast_S100000_S100000x1_0 x (ix2 n (0 : Fin 1)) = x (ix1 n) :=
  broadcastInDim_apply _ bcast_S100000_S100000x1_0 x (ix2 n (0 : Fin 1)) (ix1 n) (fun a => match a with
    | ⟨0, _⟩ => by show n.val = if (100000 : Nat) = 1 then 0 else n.val; rw [if_neg (by decide)])

/-- Column 0 of the side array: the node's index word as a float. -/
theorem side_0 (a7 : S1000000.Idx → BitVec 32) (a8 : S100000.Idx → BitVec 32) (n : Fin 100000) :
    sideArr a7 a8 (ix2 n (0 : Fin 2)) = ((((a8 (ix1 n)).toInt : ℤ) : ℝ) : EReal) := by
  unfold sideArr
  rw [concatenate_pair_apply_left (t := S100000x2) 1 _ _ concatenates_S100000x1_S100000x1_S100000x2_d1 (ix2 n (0 : Fin 2)) rfl (ix2 n (0 : Fin 1))
    (fun b => by match b with | ⟨0, _⟩ => rfl | ⟨1, _⟩ => rfl)]
  rw [col_apply]
  rfl

/-- Column 1 of the side array: the count. -/
theorem side_1 (a7 : S1000000.Idx → BitVec 32) (a8 : S100000.Idx → BitVec 32) (n : Fin 100000) :
    sideArr a7 a8 (ix2 n (1 : Fin 2)) = segCnt a7 (ix1 n) := by
  unfold sideArr
  rw [concatenate_pair_apply_right (t := S100000x2) 1 _ _ concatenates_S100000x1_S100000x1_S100000x2_d1 (ix2 n (1 : Fin 2)) rfl rfl (ix2 n (0 : Fin 1))
    (fun b hb => by match b with | ⟨0, _⟩ => rfl | ⟨1, _⟩ => exact absurd rfl hb) rfl]
  rw [col_apply]

/-- The folded table at row b, column j: the table's row b against the third band's column j. -/
theorem table_apply (T : S64x64.Idx → EReal) (W1 : S192x32.Idx → EReal) (b : Fin 64) (j : Fin 32) :
    tableArr T W1 (ix2 b j) = ∑ k : Fin 64, T (ix2 b k) * W1 (ix2 (band 128 (by omega) k) j) := by
  unfold tableArr
  rw [dotC_apply]
  refine Finset.sum_congr rfl fun k _ => congrArg (T (ix2 b k) * ·) ?_
  exact slice2_axis0_apply 128 W1 slices_S192x32_S64x32_128_0 k j _ rfl

theorem w1a_apply (W1 : S192x32.Idx → EReal) (k : Fin 64) (j : Fin 32) : w1aArr W1 (ix2 k j) = W1 (ix2 (band 0 (by omega) k) j) :=
  slice2_axis0_apply 0 W1 slices_S192x32_S64x32_0_0 k j _ rfl

theorem w1b_apply (W1 : S192x32.Idx → EReal) (k : Fin 64) (j : Fin 32) : w1bArr W1 (ix2 k j) = W1 (ix2 (band 64 (by omega) k) j) :=
  slice2_axis0_apply 64 W1 slices_S192x32_S64x32_64_0 k j _ rfl

theorem b1_apply (B1 : S32.Idx → EReal) (j : Fin 32) : b1Arr B1 (ix2 (0 : Fin 1) j) = B1 (ix1 j) := by
  refine shapeCast_apply B1 shapeCasts_S32_S1x32 (ix2 (0 : Fin 1) j) (ix1 j) ?_
  rw [Shape.rowMajor_val_two, Shape.rowMajor_val_one]
  show j.val = 0 * 32 + j.val
  omega

theorem b2_apply (B2 : S64.Idx → EReal) (o : Fin 64) : b2Arr B2 (ix2 (0 : Fin 1) o) = B2 (ix1 o) := by
  refine shapeCast_apply B2 shapeCasts_S64_S1x64 (ix2 (0 : Fin 1) o) (ix1 o) ?_
  rw [Shape.rowMajor_val_two, Shape.rowMajor_val_one]
  show o.val = 0 * 64 + o.val
  omega

/-! ## What each window's array holds when the launch begins -/

variable (m : (ℓ : Loc nD τ sig) → Buf (Elt Ideal) ℓ)

/-- The argument arrays at their literal types. -/
abbrev arg0 (c : Dev nD) : S100000x64.Idx → EReal := m ((c : Thread nD τ).loc main_arg0)
abbrev arg1 (c : Dev nD) : S1000000x64.Idx → EReal := m ((c : Thread nD τ).loc main_arg1)
abbrev arg2 (c : Dev nD) : S64x64.Idx → EReal := m ((c : Thread nD τ).loc main_arg2)
abbrev arg3 (c : Dev nD) : S192x32.Idx → EReal := m ((c : Thread nD τ).loc main_arg3)
abbrev arg4 (c : Dev nD) : S32.Idx → EReal := m ((c : Thread nD τ).loc main_arg4)
abbrev arg5 (c : Dev nD) : S32x64.Idx → EReal := m ((c : Thread nD τ).loc main_arg5)
abbrev arg6 (c : Dev nD) : S64.Idx → EReal := m ((c : Thread nD τ).loc main_arg6)
abbrev arg7 (c : Dev nD) : S1000000.Idx → BitVec 32 := m ((c : Thread nD τ).loc main_arg7)
abbrev arg8 (c : Dev nD) : S100000.Idx → BitVec 32 := m ((c : Thread nD τ).loc main_arg8)

theorem V_sums (c : Dev nD) : (V m c main_v2 : S100000x64.Idx → EReal) = segSums (arg1 m c) (arg7 m c) := by
  dsimp only [Gen.V, Gen.hostOps0]
  after_results

theorem V_side (c : Dev nD) : (V m c main_v10 : S100000x2.Idx → EReal) = sideArr (arg7 m c) (arg8 m c) := by
  unfold sideArr
  dsimp only [Gen.V, Gen.hostOps0]
  after_results

theorem V_table (c : Dev nD) : (V m c main_v14 : S64x32.Idx → EReal) = tableArr (arg2 m c) (arg3 m c) := by
  unfold tableArr
  dsimp only [Gen.V, Gen.hostOps0]
  after_results

theorem V_w1a (c : Dev nD) : (V m c main_v11 : S64x32.Idx → EReal) = w1aArr (arg3 m c) := by
  unfold w1aArr
  dsimp only [Gen.V, Gen.hostOps0]
  after_results

theorem V_w1b (c : Dev nD) : (V m c main_v12 : S64x32.Idx → EReal) = w1bArr (arg3 m c) := by
  unfold w1bArr
  dsimp only [Gen.V, Gen.hostOps0]
  after_results

theorem V_b1 (c : Dev nD) : (V m c main_v15 : S1x32.Idx → EReal) = b1Arr (arg4 m c) := by
  unfold b1Arr
  dsimp only [Gen.V, Gen.hostOps0]
  after_results
  rfl

theorem V_b2 (c : Dev nD) : (V m c main_v16 : S1x64.Idx → EReal) = b2Arr (arg6 m c) := by
  unfold b2Arr
  dsimp only [Gen.V, Gen.hostOps0]
  after_results
  rfl

/-- The same, stated at the array each window stages (window w stages `Pipeline.arrRef spec0 w`). -/
theorem A0 (c : Dev nD) : (V m c (Pipeline.arrRef spec0 0) : S100000x64.Idx → EReal) = arg0 m c := V_main_arg0 m c
theorem A1 (c : Dev nD) : (V m c (Pipeline.arrRef spec0 1) : S100000x64.Idx → EReal) = segSums (arg1 m c) (arg7 m c) := V_sums m c
theorem A2 (c : Dev nD) : (V m c (Pipeline.arrRef spec0 2) : S100000x2.Idx → EReal) = sideArr (arg7 m c) (arg8 m c) := V_side m c
theorem A3 (c : Dev nD) : (V m c (Pipeline.arrRef spec0 3) : S64x32.Idx → EReal) = tableArr (arg2 m c) (arg3 m c) := V_table m c
theorem A4 (c : Dev nD) : (V m c (Pipeline.arrRef spec0 4) : S64x32.Idx → EReal) = w1aArr (arg3 m c) := V_w1a m c
theorem A5 (c : Dev nD) : (V m c (Pipeline.arrRef spec0 5) : S64x32.Idx → EReal) = w1bArr (arg3 m c) := V_w1b m c
theorem A6 (c : Dev nD) : (V m c (Pipeline.arrRef spec0 6) : S1x32.Idx → EReal) = b1Arr (arg4 m c) := V_b1 m c
theorem A7 (c : Dev nD) : (V m c (Pipeline.arrRef spec0 7) : S32x64.Idx → EReal) = arg5 m c := V_main_arg5 m c
theorem A8 (c : Dev nD) : (V m c (Pipeline.arrRef spec0 8) : S1x64.Idx → EReal) = b2Arr (arg6 m c) := V_b2 m c

end Cert.KernelSide

end
-- ==== Proof.KernelRow.lean ====
/-
  One row of the kernel's block, element by element.

  The body turns the node's graph number, carried as a float in column 0 of the two-column side block,
  back into a word, compares it with each of the 64 lane numbers and widens the comparison bit to a float:
  a row of 64 zeros with a single one (`hot`).  Multiplied into the folded table that row picks out one of
  its rows.  The hidden layer at (p, j) is the relu of three 64-term sums plus the bias; the output at (p, o)
  is the 32-term sum of hidden entries against the second weights, plus the second bias.
-/
import proofs.«412997_j16449724745526_2_alg».proof.Proof.KernelOps
import Idealize.ShloMosaic.Lib.StableHlo.Predicate

noncomputable section

open scoped BigOperators

namespace Cert.KernelSide

open Cert.KernelIdeal Cert.KernelIdeal.Gen Idealize.ShloMosaic Idealize.ShloMosaic.ValueIdx

/-- Lane b of the comparison row: the float a truncated to a word, compared with b, the bit widened and read as a float. -/
def hot (a : EReal) (b : Fin 64) : EReal :=
  ((((IntOp.cmpi .eq (Ideal.fptosi 32 a) (BitVec.ofNat 32 b.val)).setWidth 32).toInt : ℝ) : EReal)

/-- THE HIDDEN LAYER at row p, column j of a block: node features against the first band of weights, the received
    mean against the second, the comparison row against the folded table, the bias, and the relu. -/
theorem hidden_apply (x0 x1 : Vec Ideal S4000x64 .f32) (x2 : Vec Ideal S4000x2 .f32) (x3 x4 x5 : Vec Ideal S64x32 .f32)
    (x6 : Vec Ideal S1x32 .f32) (p : Fin 4000) (j : Fin 32) :
    k0_pay2 x0 x1 x2 x3 x4 x5 x6 (ix2 p j)
      = max ((∑ k : Fin 64, x0 (ix2 p k) * x4 (ix2 k j))
            + (∑ k : Fin 64, Ideal.div (x1 (ix2 p k)) (max (x2 (ix2 p (1 : Fin 2))) (Ideal.ofBits .f32 0x3F800000#32)) * x5 (ix2 k j))
            + (∑ b : Fin 64, hot (x2 (ix2 p (0 : Fin 2))) b * x3 (ix2 b j))
            + x6 (ix2 (0 : Fin 1) j))
          (Ideal.ofBits .f32 0x00000000#32) := by
  unfold k0_pay2
  simp only [shapeCast_self]
  rw [maximumf_apply, addf_apply, addf_apply, addf_apply, matmulA_apply, matmulA_apply, matmulA_apply, broadcastTo_1b_ab_apply, broadcast_apply]
  refine congrArg₂ max (congrArg₂ (· + ·) (congrArg₂ (· + ·) (congrArg₂ (· + ·) ?_ ?_) ?_) rfl) rfl
  · exact Finset.sum_congr rfl fun k _ => rfl
  · refine Finset.sum_congr rfl fun k _ => congrArg₂ (· * ·) ?_ rfl
    show Ideal.div (x1 (ix2 p k)) (broadcastTo S4000x64 (maximumf (extractStridedSlice S4000x1 ![0, 1] x2 slices_S4000x2_o0_1_S4000x1)
      (broadcast S4000x1 (FloatOps.ofBits (F := Ideal) .f32 0x3F800000#32))) broadcasts_S4000x1_S4000x64 (ix2 p k)) = _
    rw [broadcastTo_a1_ab_apply, maximumf_apply, slice2_axis1_apply 1 x2 slices_S4000x2_o0_1_S4000x1 p (0 : Fin 1) (1 : Fin 2) rfl]
    rfl
  · refine Finset.sum_congr rfl fun b _ => congrArg₂ (· * ·) ?_ rfl
    show ((((IntOp.cmpi .eq (broadcastTo S4000x64 (fptosi (F := Ideal) 32 (extractStridedSlice S4000x1 ![0, 0] x2 slices_S4000x2_o0_0_S4000x1))
      broadcasts_S4000x1_S4000x64 (ix2 p b)) (iota .tc S4000x64 32 [1] iota_S4000x64_d1_w32 (ix2 p b))).setWidth 32).toInt : ℝ) : EReal) = _
    rw [broadcastTo_a1_ab_apply, iota_single_apply]
    show ((((IntOp.cmpi .eq (Ideal.fptosi 32 (extractStridedSlice S4000x1 ![0, 0] x2 slices_S4000x2_o0_0_S4000x1 (ix2 p (0 : Fin 1))))
      (BitVec.ofNat 32 b.val)).setWidth 32).toInt : ℝ) : EReal) = _
    rw [slice2_axis1_apply 0 x2 slices_S4000x2_o0_0_S4000x1 p (0 : Fin 1) (0 : Fin 2) rfl]
    rfl

/-- THE OUTPUT at row p, column o of a block: the hidden row against the second weights, plus the second bias. -/
theorem out_apply (h : FVec Ideal S4000x32 .f32) (x7 : Vec Ideal S32x64 .f32) (x8 : Vec Ideal S1x64 .f32) (p : Fin 4000) (o : Fin 64) :
    k0_pay1 h x7 x8 (ix2 p o) = (∑ j : Fin 32, h (ix2 p j) * x7 (ix2 j o)) + x8 (ix2 (0 : Fin 1) o) := by
  unfold k0_pay1
  simp only [shapeCast_self]
  rw [addf_apply, matmulB_apply, broadcastTo_1b_ab_apply]
  rfl

/-! ## The comparison row picks one row of the table -/

/-- A small natural number, as a float, truncates back to its word. -/
theorem fptosi_small (s : ℕ) (hs : s < 64) : Ideal.fptosi 32 (((s : ℤ) : ℝ) : EReal) = BitVec.ofNat 32 s := by
  rw [Ideal.fptosi, Ideal.toIntClamped_coe]
  have h0 : (0 : ℝ) ≤ ((s : ℤ) : ℝ) := by exact_mod_cast Int.natCast_nonneg s
  rw [if_pos h0, Int.floor_intCast]
  have e : max (-((2 ^ (32 - 1) : ℕ) : ℤ)) (min (((2 ^ (32 - 1) : ℕ) : ℤ) - 1) (s : ℤ)) = (s : ℤ) := by
    have : ((2 ^ (32 - 1) : ℕ) : ℤ) = 2147483648 := by norm_num
    rw [this]
    omega
  rw [e]
  exact BitVec.ofInt_natCast 32 s

/-- For a word in the table's range, carried as a float: lane b of the comparison row is 1 at the word's number, 0 elsewhere. -/
theorem hot_eq (s : ℕ) (hs : s < 64) (b : Fin 64) :
    hot ((((BitVec.ofNat 32 s).toInt : ℤ) : ℝ) : EReal) b = if s = b.val then 1 else 0 := by
  unfold hot
  rw [StableHlo.Predicate.toInt_ofNat_small s (by omega), fptosi_small s hs]
  by_cases h : s = b.val
  · rw [if_pos h, h]
    have : IntOp.cmpi .eq (BitVec.ofNat 32 b.val) (BitVec.ofNat 32 b.val) = 1#1 := StableHlo.Predicate.cmpi_eq_iff.2 rfl
    rw [this]
    norm_num
  · rw [if_neg h]
    have hne : ¬ IntOp.cmpi .eq (BitVec.ofNat 32 s) (BitVec.ofNat 32 b.val) = 1#1 := fun hc => h (by
      have := congrArg BitVec.toNat (StableHlo.Predicate.cmpi_eq_iff.1 hc)
      simp only [BitVec.toNat_ofNat] at this
      have hb := b.isLt
      omega)
    rw [eq_zero_of_ne_one hne]
    norm_num

/-- So the comparison row against any 64 values is the value at the word's number. -/
theorem hot_select (s : ℕ) (hs : s < 64) (g : Fin 64 → EReal) :
    ∑ b : Fin 64, hot ((((BitVec.ofNat 32 s).toInt : ℤ) : ℝ) : EReal) b * g b = g ⟨s, hs⟩ := by
  rw [Finset.sum_eq_single (⟨s, hs⟩ : Fin 64)]
  · rw [hot_eq s hs, if_pos rfl, one_mul]
  · intro b _ hb
    rw [hot_eq s hs, if_neg (fun h => hb (Fin.ext h.symm)), zero_mul]
  · intro h; exact absurd (Finset.mem_univ _) h

end Cert.KernelSide

end
-- ==== Proof.KernelBlock.lean ====
/-
  One row of a block is the specification at that node.

  Let the blocks the body loads hold, at local row p, what the arrays hold at node n: the node's features and
  segment sums, its index word as a float and its count; and let the whole-array operands hold the three bands
  of the first weights (the third already multiplied into the table of global features), the biases and the
  second weights.  Then the body's result at (p, o) is `G` at (n, o).  The one step that is not a renaming:
  for an index word in the table's range the comparison row has its single one at the word's number, so its
  product with the folded table is the row the word names.
-/
import proofs.«412997_j16449724745526_2_alg».proof.Proof.KernelRow
import proofs.«412997_j16449724745526_2_alg».proof.Proof.Spec

noncomputable section

open scoped BigOperators

namespace Cert.KernelSide

open Cert.KernelIdeal Cert.KernelIdeal.Gen Idealize.ShloMosaic Idealize.ShloMosaic.ValueIdx Cert.NodeMlp

theorem block_row (x0 x1 : Vec Ideal S4000x64 .f32) (x2 : Vec Ideal S4000x2 .f32) (x3 x4 x5 : Vec Ideal S64x32 .f32)
    (x6 : Vec Ideal S1x32 .f32) (x7 : Vec Ideal S32x64 .f32) (x8 : Vec Ideal S1x64 .f32)
    (A0 sums : S100000x64.Idx → EReal) (cnt : S100000.Idx → EReal) (T : S64x64.Idx → EReal) (W1 : S192x32.Idx → EReal)
    (B1 : S32.Idx → EReal) (W2 : S32x64.Idx → EReal) (B2 : S64.Idx → EReal) (ng : S100000.Idx → BitVec 32)
    (hng : InRange ng) (n : Fin 100000) (p : Fin 4000)
    (h0 : ∀ k : Fin 64, x0 (ix2 p k) = A0 (ix2 n k)) (h1 : ∀ k : Fin 64, x1 (ix2 p k) = sums (ix2 n k))
    (h2a : x2 (ix2 p (0 : Fin 2)) = ((((ng (ix1 n)).toInt : ℤ) : ℝ) : EReal)) (h2b : x2 (ix2 p (1 : Fin 2)) = cnt (ix1 n))
    (h3 : ∀ (b : Fin 64) (j : Fin 32), x3 (ix2 b j) = ∑ k : Fin 64, T (ix2 b k) * W1 (ix2 (band 128 (by omega) k) j))
    (h4 : ∀ (k : Fin 64) (j : Fin 32), x4 (ix2 k j) = W1 (ix2 (band 0 (by omega) k) j))
    (h5 : ∀ (k : Fin 64) (j : Fin 32), x5 (ix2 k j) = W1 (ix2 (band 64 (by omega) k) j))
    (h6 : ∀ j : Fin 32, x6 (ix2 (0 : Fin 1) j) = B1 (ix1 j))
    (h7 : ∀ (j : Fin 32) (o : Fin 64), x7 (ix2 j o) = W2 (ix2 j o))
    (h8 : ∀ o : Fin 64, x8 (ix2 (0 : Fin 1) o) = B2 (ix1 o)) (o : Fin 64) :
    k0_pay1 (k0_pay2 x0 x1 x2 x3 x4 x5 x6) x7 x8 (ix2 p o) = G A0 sums cnt T W1 B1 W2 B2 ng (ix2 n o) := by
  rw [out_apply]
  show _ = (∑ j : Fin 32, hid A0 sums cnt T W1 B1 ng n j * W2 (ix2 j o)) + B2 (ix1 o)
  rw [h8 o]
  refine congrArg₂ (· + ·) (Finset.sum_congr rfl fun j _ => ?_) rfl
  rw [h7 j o, hidden_apply]
  refine congrArg₂ (· * ·) (congrArg₂ max ?_ rfl) rfl
  unfold lin
  rw [h6 j]
  refine congrArg₂ (· + ·) (congrArg₂ (· + ·) (congrArg₂ (· + ·) ?_ ?_) ?_) rfl
  · exact Finset.sum_congr rfl fun k _ => by rw [h0 k, h4 k j]
  · refine Finset.sum_congr rfl fun k _ => ?_
    rw [h1 k, h2b, h5 k j]
    rfl
  · rw [h2a, word_eq_slot hng n, hot_select (slot ng n).val (slot ng n).isLt (fun b => x3 (ix2 b j))]
    exact h3 (slot ng n) j

end Cert.KernelSide

end
-- ==== Proof.KernelGrid.lean ====
/-
  The grid of 25 points and where each block lies in its array.

  Point t takes rows 4000 t to 4000 t + 3999 of the node features, the segment sums, the side array and the
  result, and the one block there is of the folded table, the weight bands, the second weights and the biases.
  A block's coordinate lands at block index times block extent plus the coordinate; the 25 row blocks cover
  all 100000 rows of the result.
-/
import proofs.«412997_j16449724745526_2_alg».proof.Proof.Gen.KernelIdeal.Value
import Idealize.ShloMosaic.Lib.ValueIdx
import Idealize.ShloMosaic.PureOps.Ideal

noncomputable section

namespace Cert.KernelSide

open Cert.KernelIdeal Cert.KernelIdeal.Gen Idealize.ShloMosaic Idealize.ShloMosaic.TcCoe Idealize.SL.Sem
  Idealize.ShloMosaic.ValueIdx
open Idealize.ShloMosaic.Pipeline (Dat)

theorem hz : (![0, 0] : Fin 2 → Nat) = fun _ => 0 := funext fun a => by fin_cases a <;> rfl

/-- The index maps over the 25 points: four windows take block t of rows, six take the one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ t.val < 25 :=
  (by decide +kernel : ∀ t : Fin grid0.N, _)

/-- Every block of rows is some point's. -/
theorem idx_onto : ∀ q : Fin 25, ∃ t : Fin cfg0.N, win0_9.index t = ![q.val, 0] :=
  (by decide +kernel : ∀ q : Fin 25, ∃ t : Fin grid0.N, win0_9.index t = ![q.val, 0])

/-! ## Where a block's coordinates land in its array -/

section Emb
variable (t : Fin cfg0.N)

theorem emb0 (p : Fin 4000) (k : Fin 64) (n : Fin 100000) (hn : n.val = 4000 * t.val + p.val) :
    ((cfg0.win 0).blk t).view.emb (ix2 p k) = ix2 n k := by
  obtain ⟨e0, e1, -⟩ := idx_facts t
  funext a; apply Fin.ext
  match a with
  | ⟨0, _⟩ => show win0_0.index t (0 : Fin 2) * 4000 + 1 * p.val = n.val; omega
  | ⟨1, _⟩ => show win0_0.index t (1 : Fin 2) * 64 + 1 * k.val = k.val; omega

theorem emb1 (p : Fin 4000) (k : Fin 64) (n : Fin 100000) (hn : n.val = 4000 * t.val + p.val) :
    ((cfg0.win 1).blk t).view.emb (ix2 p k) = ix2 n k := by
  obtain ⟨-, -, e0, e1, -⟩ := idx_facts t
  funext a; apply Fin.ext
  match a with
  | ⟨0, _⟩ => show win0_1.index t (0 : Fin 2) * 4000 + 1 * p.val = n.val; omega
  | ⟨1, _⟩ => show win0_1.index t (1 : Fin 2) * 64 + 1 * k.val = k.val; omega

theorem emb2 (p : Fin 4000) (k : Fin 2) (n : Fin 100000) (hn : n.val = 4000 * t.val + p.val) :
    ((cfg0.win 2).blk t).view.emb (ix2 p k) = ix2 n k := by
  obtain ⟨-, -, -, -, e0, e1, -⟩ := idx_facts t
  funext a; apply Fin.ext
  match a with
  | ⟨0, _⟩ => show win0_2.index t (0 : Fin 2) * 4000 + 1 * p.val = n.val; omega
  | ⟨1, _⟩ => show win0_2.index t (1 : Fin 2) * 2 + 1 * k.val = k.val; omega

theorem emb3 (b : Fin 64) (j : Fin 32) : ((cfg0.win 3).blk t).view.emb (ix2 b j) = ix2 b j := by
  obtain ⟨-, -, -, -, -, -, e0, e1, -⟩ := idx_facts t
  funext a; apply Fin.ext
  match a with
  | ⟨0, _⟩ => show win0_3.index t (0 : Fin 2) * 64 + 1 * b.val = b.val; omega
  | ⟨1, _⟩ => show win0_3.index t (1 : Fin 2) * 32 + 1 * j.val = j.val; omega

theorem emb4 (b : Fin 64) (j : Fin 32) : ((cfg0.win 4).blk t).view.emb (ix2 b j) = ix2 b j := by
  obtain ⟨-, -, -, -, -, -, -, -, e0, e1, -⟩ := idx_facts t
  funext a; apply Fin.ext
  match a with
  | ⟨0, _⟩ => show win0_4.index t (0 : Fin 2) * 64 + 1 * b.val = b.val; omega
  | ⟨1, _⟩ => show win0_4.index t (1 : Fin 2) * 32 + 1 * j.val = j.val; omega

theorem emb5 (b : Fin 64) (j : Fin 32) : ((cfg0.win 5).blk t).view.emb (ix2 b j) = ix2 b j := by
  obtain ⟨-, -, -, -, -, -, -, -, -, -, e0, e1, -⟩ := idx_facts t
  funext a; apply Fin.ext
  match a with
  | ⟨0, _⟩ => show win0_5.index t (0 : Fin 2) * 64 + 1 * b.val = b.val; omega
  | ⟨1, _⟩ => show win0_5.index t (1 : Fin 2) * 32 + 1 * j.val = j.val; omega

theorem emb6 (z : Fin 1) (j : Fin 32) : ((cfg0.win 6).blk t).view.emb (ix2 z j) = ix2 z j := by
  obtain ⟨-, -, -, -, -, -, -, -, -, -, -, -, e0, e1, -⟩ := idx_facts t
  funext a; apply Fin.ext
  match a with
  | ⟨0, _⟩ => show win0_6.index t (0 : Fin 2) * 1 + 1 * z.val = z.val; omega
  | ⟨1, _⟩ => show win0_6.index t (1 : Fin 2) * 32 + 1 * j.val = j.val; omega

theorem emb7 (j : Fin 32) (o : Fin 64) : ((cfg0.win 7).blk t).view.emb (ix2 j o) = ix2 j o := by
  obtain ⟨-, -, -, -, -, -, -, -, -, -, -, -, -, -, e0, e1, -⟩ := idx_facts t
  funext a; apply Fin.ext
  match a with
  | ⟨0, _⟩ => show win0_7.index t (0 : Fin 2) * 32 + 1 * j.val = j.val; omega
  | ⟨1, _⟩ => show win0_7.index t (1 : Fin 2) * 64 + 1 * o.val = o.val; omega

theorem emb8 (z : Fin 1) (o : Fin 64) : ((cfg0.win 8).blk t).view.emb (ix2 z o) = ix2 z o := by
  obtain ⟨-, -, -, -, -, -, -, -, -, -, -, -, -, -, -, -, e0, e1, -⟩ := idx_facts t
  funext a; apply Fin.ext
  match a with
  | ⟨0, _⟩ => show win0_8.index t (0 : Fin 2) * 1 + 1 * z.val = z.val; omega
  | ⟨1, _⟩ => show win0_8.index t (1 : Fin 2) * 64 + 1 * o.val = o.val; omega

theorem emb9 (p : Fin 4000) (o : Fin 64) (n : Fin 100000) (hn : n.val = 4000 * t.val + p.val) :
    ((cfg0.win 9).blk t).view.emb (ix2 p o) = ix2 n o := by
  obtain ⟨-, -, -, -, -, -, -, -, -, -, -, -, -, -, -, -, -, -, e0, e1, -⟩ := idx_facts t
  funext a; apply Fin.ext
  match a with
  | ⟨0, _⟩ => show win0_9.index t (0 : Fin 2) * 4000 + 1 * p.val = n.val; omega
  | ⟨1, _⟩ => show win0_9.index t (1 : Fin 2) * 64 + 1 * o.val = o.val; omega

end Emb

/-! ## A block read through its window, for any contents of the array -/

section Reads
variable (t : Fin cfg0.N)

theorem read0 (X : S100000x64.Idx → EReal) (p : Fin 4000) (k : Fin 64) (n : Fin 100000) (hn : n.val = 4000 * t.val + p.val) :
    ((cfg0.win 0).blk t).view.read (Elt Ideal) X (ix2 p k) = X (ix2 n k) := by
  show X (((cfg0.win 0).blk t).view.emb (ix2 p k)) = _
  rw [emb0 t p k n hn]

theorem read1 (X : S100000x64.Idx → EReal) (p : Fin 4000) (k : Fin 64) (n : Fin 100000) (hn : n.val = 4000 * t.val + p.val) :
    ((cfg0.win 1).blk t).view.read (Elt Ideal) X (ix2 p k) = X (ix2 n k) := by
  show X (((cfg0.win 1).blk t).view.emb (ix2 p k)) = _
  rw [emb1 t p k n hn]

theorem read2 (X : S100000x2.Idx → EReal) (p : Fin 4000) (k : Fin 2) (n : Fin 100000) (hn : n.val = 4000 * t.val + p.val) :
    ((cfg0.win 2).blk t).view.read (Elt Ideal) X (ix2 p k) = X (ix2 n k) := by
  show X (((cfg0.win 2).blk t).view.emb (ix2 p k)) = _
  rw [emb2 t p k n hn]

theorem read3 (X : S64x32.Idx → EReal) (b : Fin 64) (j : Fin 32) :
    ((cfg0.win 3).blk t).view.read (Elt Ideal) X (ix2 b j) = X (ix2 b j) := by
  show X (((cfg0.win 3).blk t).view.emb (ix2 b j)) = _
  rw [emb3 t b j]

theorem read4 (X : S64x32.Idx → EReal) (b : Fin 64) (j : Fin 32) :
    ((cfg0.win 4).blk t).view.read (Elt Ideal) X (ix2 b j) = X (ix2 b j) := by
  show X (((cfg0.win 4).blk t).view.emb (ix2 b j)) = _
  rw [emb4 t b j]

theorem read5 (X : S64x32.Idx → EReal) (b : Fin 64) (j : Fin 32) :
    ((cfg0.win 5).blk t).view.read (Elt Ideal) X (ix2 b j) = X (ix2 b j) := by
  show X (((cfg0.win 5).blk t).view.emb (ix2 b j)) = _
  rw [emb5 t b j]

theorem read6 (X : S1x32.Idx → EReal) (z : Fin 1) (j : Fin 32) :
    ((cfg0.win 6).blk t).view.read (Elt Ideal) X (ix2 z j) = X (ix2 z j) := by
  show X (((cfg0.win 6).blk t).view.emb (ix2 z j)) = _
  rw [emb6 t z j]

theorem read7 (X : S32x64.Idx → EReal) (j : Fin 32) (o : Fin 64) :
    ((cfg0.win 7).blk t).view.read (Elt Ideal) X (ix2 j o) = X (ix2 j o) := by
  show X (((cfg0.win 7).blk t).view.emb (ix2 j o)) = _
  rw [emb7 t j o]

theorem read8 (X : S1x64.Idx → EReal) (z : Fin 1) (o : Fin 64) :
    ((cfg0.win 8).blk t).view.read (Elt Ideal) X (ix2 z o) = X (ix2 z o) := by
  show X (((cfg0.win 8).blk t).view.emb (ix2 z o)) = _
  rw [emb8 t z o]

end Reads

/-! ## The cover -/

/-- An index of the result is in point t's block iff each coordinate is in the block's range on its axis. -/
theorem mem_blk (t : Fin cfg0.N) (i : S100000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v17).slice (win0_9.rect t)).set ↔ _
  rw [View.set_slice_whole, Rect.mem_set_unit]
  exact Iff.rfl

/-- Every row of the result is in some point's block: row r is in block r / 4000. -/
theorem cover (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := idx_onto ⟨(i 0).val / 4000, by omega⟩
  have q0 : win0_9.index t (0 : Fin 2) = (i 0).val / 4000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 64 ≤ (i 1).val ∧ (i 1).val < win0_9.index t (1 : Fin 2) * 64 + 64; omega

end Cert.KernelSide

end
-- ==== Proof.KernelValue.lean ====
/-
  From blocks to the whole result.

  The grid has 25 points; point t works on nodes 4000 t to 4000 t + 3999.  The node features, the segment
  sums, the side array and the result move with the point (block t of rows); the folded table, the two weight
  bands, the second weights and the biases are whole-array operands, the same at every point.  So local row p
  of point t is node 4000 t + p, what point t writes back is block t of the specification `G`, and the 25
  blocks cover all 100000 rows: the result array is `G`.
-/
import proofs.«412997_j16449724745526_2_alg».proof.Proof.Gen.KernelIdeal.Value
import proofs.«412997_j16449724745526_2_alg».proof.Proof.KernelHost
import proofs.«412997_j16449724745526_2_alg».proof.Proof.KernelBlock
import proofs.«412997_j16449724745526_2_alg».proof.Proof.KernelGrid

noncomputable section

open scoped BigOperators

namespace Cert.KernelSide

open Cert.KernelIdeal Cert.KernelIdeal.Gen Idealize.ShloMosaic Idealize.ShloMosaic.TcCoe Idealize.SL.Sem
  Idealize.ShloMosaic.ValueIdx Cert.NodeMlp
open Idealize.ShloMosaic.Pipeline (Dat)

variable (m : (ℓ : Loc nD τ sig) → Buf (Elt Ideal) ℓ) (ρ : Dev nD → PrngReg)

/-- The result as the kernel's program computes it: the specification at the argument arrays, with the segment sums
    and counts as the program's two scatters. -/
abbrev Gk (c : Dev nD) : S100000x64.Idx → EReal :=
  G (arg0 m c) (segSums (arg1 m c) (arg7 m c)) (segCnt (arg7 m c)) (arg2 m c) (arg3 m c) (arg4 m c) (arg5 m c) (arg6 m c) (arg8 m c)

/-! ## What a point writes back -/

/-- WHAT POINT t WRITES BACK is block t of the specification. -/
theorem flushed_eq (c : Dev nD) (hng : InRange (arg8 m c)) (t : Fin cfg0.N) :
    (dats m 0 c).flushed 9 t = ((cfg0.win 9).blk t).view.read (Elt Ideal) (Gk m c) := by
  rw [Cert.KernelIdeal.Value.flushed9]
  unfold out0_9
  rw [View.canon_unit_zero hz]
  simp only [View.ld_unit_zero (S := S4000x64) hz, View.ld_unit_zero (S := S4000x2) hz, View.ld_unit_zero (S := S64x32) hz,
    View.ld_unit_zero (S := S1x32) hz, View.ld_unit_zero (S := S32x64) hz, View.ld_unit_zero (S := S1x64) hz]
  funext y
  obtain ⟨p, o, rfl⟩ : ∃ (p : Fin 4000) (o : Fin 64), y = ix2 p o := ⟨y 0, y 1, eq_ix2 y⟩
  have ht : t.val < 25 := (idx_facts t).2.2.2.2.2.2.2.2.2.2.2.2.2.2.2.2.2.2.2.2
  have hp := p.isLt
  let n : Fin 100000 := ⟨4000 * t.val + p.val, by omega⟩
  have hn : n.val = 4000 * t.val + p.val := rfl
  show k0_pay1 (k0_pay2 (iblk m c 0 t) (iblk m c 1 t) (iblk m c 2 t) (iblk m c 3 t) (iblk m c 4 t) (iblk m c 5 t) (iblk m c 6 t))
      (iblk m c 7 t) (iblk m c 8 t) (ix2 p o) = Gk m c (((cfg0.win 9).blk t).view.emb (ix2 p o))
  rw [emb9 t p o n hn]
  refine block_row (iblk m c 0 t) (iblk m c 1 t) (iblk m c 2 t) (iblk m c 3 t) (iblk m c 4 t) (iblk m c 5 t) (iblk m c 6 t)
    (iblk m c 7 t) (iblk m c 8 t) (arg0 m c) (segSums (arg1 m c) (arg7 m c)) (segCnt (arg7 m c)) (arg2 m c) (arg3 m c) (arg4 m c)
    (arg5 m c) (arg6 m c) (arg8 m c) hng n p ?_ ?_ ?_ ?_ ?_ ?_ ?_ ?_ ?_ ?_ o
  · intro k
    unfold iblk
    rw [A0, read0 t _ p k n hn]
  · intro k
    unfold iblk
    rw [A1, read1 t _ p k n hn]
  · unfold iblk
    rw [A2, read2 t _ p 0 n hn, side_0]
  · unfold iblk
    rw [A2, read2 t _ p 1 n hn, side_1]
  · intro b j
    unfold iblk
    rw [A3, read3 t _ b j, table_apply]
  · intro k j
    unfold iblk
    rw [A4, read4 t _ k j, w1a_apply]
  · intro k j
    unfold iblk
    rw [A5, read5 t _ k j, w1b_apply]
  · intro j
    unfold iblk
    rw [A6, read6 t _ 0 j, b1_apply]
  · intro j o'
    unfold iblk
    rw [A7, read7 t _ j o']
  · intro o'
    unfold iblk
    rw [A8, read8 t _ 0 o', b2_apply]

/-! ## The array after the run -/

/-- THE RESULT ARRAY after the run is the specification. -/
theorem final (c : Dev nD) (hng : InRange (arg8 m c)) : (dats m 0 c).arrAt 9 cfg0.N = Gk m c :=
  (dats m 0 c).arrAt_eq_of_cover 9 (Gk m c) (fun t _ => flushed_eq m c hng t) cover

/-- The kernel's run, its result named. -/
theorem run (hng : ∀ c : Dev nD, InRange (arg8 m c)) :
    θ_run defs (onTc (τ := τ) (main (F := Ideal))) ⟨m, fun _ => 0, ρ⟩ fun r => ∀ c : Dev nD,
      r.2.mem ((c : Thread nD τ).loc main_v17) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hng c)), (h c).2⟩)
    (Cert.KernelIdeal.Value.run_blocks m ρ)

end Cert.KernelSide

end
-- ==== Proof.lean ====
/-
  A graph network's node update, as a fused kernel and as plain array code, computes one function.

  Both programs form, for every node, the mean of the edge features it receives (a segment sum over
  max (count, 1): the same two scatters in both, never opened), look up the node's graph in a 64-row table
  of global features, and send [node features | received mean | global features] through
  relu (· W1 + b1) W2 + b2.  The array code gathers the table's row and contracts the 192-wide joined row
  against W1.  The kernel never builds the joined row: it contracts the three 64-wide parts against the
  three bands of W1 separately, the third band multiplied into the table beforehand, and selects the node's
  row of that folded table by a row of 64 comparison bits.  Over the extended reals the two agree: a sum of
  192 terms is the sum of its three bands (addition there is associative and commutative, nothing more is
  used), and a row of zeros with a single one against a table is one row of the table (0 · x = 0 and
  1 · x = x hold for every extended real, so no finiteness is used).  The one hypothesis the agreement
  needs is that every node's graph number is one of the table's 64 rows: outside that range the array code
  reads a clamped row while the comparison row is all zero.  The precondition states it, and it is read
  back from the precondition's last conjunct.
-/
import proofs.«412997_j16449724745526_2_alg».proof.Defs
import proofs.«412997_j16449724745526_2_alg».proof.Proof.Gen.Kernel
import proofs.«412997_j16449724745526_2_alg».proof.Proof.Gen.Kernel.Skeleton
import proofs.«412997_j16449724745526_2_alg».proof.Proof.Gen.Kernel.Launch
import proofs.«412997_j16449724745526_2_alg».proof.Proof.Gen.Kernel.Points
import proofs.«412997_j16449724745526_2_alg».proof.Proof.Gen.Kernel.Frame
import proofs.«412997_j16449724745526_2_alg».proof.Proof.Gen.KernelIdeal
import proofs.«412997_j16449724745526_2_alg».proof.Proof.Gen.KernelIdeal.Skeleton
import proofs.«412997_j16449724745526_2_alg».proof.Proof.Gen.KernelIdeal.Launch
import proofs.«412997_j16449724745526_2_alg».proof.Proof.Gen.KernelIdeal.Points
import proofs.«412997_j16449724745526_2_alg».proof.Proof.Gen.KernelIdeal.Frame
import proofs.«412997_j16449724745526_2_alg».proof.Proof.Gen.ReferenceIdeal
import proofs.«412997_j16449724745526_2_alg».proof.Proof.Gen.Pre_finite_inputs
import proofs.«412997_j16449724745526_2_alg».proof.Proof.Gen.KernelIdeal.Value
import proofs.«412997_j16449724745526_2_alg».proof.Proof.Gen.ReferenceIdeal.Run
import proofs.«412997_j16449724745526_2_alg».proof.Proof.Gen.ReferenceIdeal.Read
import proofs.«412997_j16449724745526_2_alg».proof.Proof.PreDecode
import proofs.«412997_j16449724745526_2_alg».proof.Proof.RefSide
import proofs.«412997_j16449724745526_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The array code is a straight line of whole-array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote nothing that needs a witness. -/
theorem preserves : Cert.preserves_Kernel_KernelIdeal := trivial

/-- The two programs compute the segment sums by one and the same scatter … -/
theorem sums_agree (x1 : Cert.KernelIdeal.S1000000x64.Idx → EReal) (x7 : Cert.KernelIdeal.S1000000.Idx → BitVec 32) :
    Cert.ReferenceIdeal.Read.val_main_v2 (F := Ideal) x1 x7 = Cert.KernelSide.segSums x1 x7 := rfl

/-- … and the counts likewise. -/
theorem cnt_agree (x7 : Cert.KernelIdeal.S1000000.Idx → BitVec 32) :
    Cert.ReferenceIdeal.Read.val_main_v6 (F := Ideal) x7 = Cert.KernelSide.segCnt x7 := rfl

/-- From arguments that agree, with every graph number in the table's range, both programs end with the
    specification's array: the kernel block by block, the array code index by index. -/
theorem algebraic : Cert.algebraic_KernelIdeal_ReferenceIdeal := by
  intro m ρ m' ρ' hpre hagree
  have hng : ∀ c : Dev Cert.KernelIdeal.nD, Cert.NodeMlp.InRange (Cert.KernelSide.arg8 m c) :=
    fun c => Cert.PreDecode.inRange_of_pre _ _ _ _ _ _ _ _ _ (hpre c)
  refine ⟨fun c => Cert.KernelSide.Gk m c, Cert.KernelSide.run m ρ hng, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8, Cert.ReferenceIdeal.Read.val_main_v28_eq]
  refine (Cert.RefSide.ref_eq _ _ _ _ _ _ _ _ _ (hng c)).trans ?_
  rw [sums_agree, cnt_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
